-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S64 : Shape := ⟨1, ![64]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S32x2048x1024 .f32) (main_arg1 : FVec F S64 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S32x2048x1024 : Shape := ⟨3, ![32, 2048, 1024]⟩
abbrev S64 : Shape := ⟨1, ![64]⟩
abbrev S65536x1024 : Shape := ⟨2, ![65536, 1024]⟩
abbrev S1024 : Shape := ⟨1, ![1024]⟩
abbrev S1024x1 : Shape := ⟨2, ![1024, 1]⟩
abbrev S1x64 : Shape := ⟨2, ![1, 64]⟩
abbrev S_ : Shape := ⟨0, ![]⟩
abbrev S1024x64 : Shape := ⟨2, ![1024, 64]⟩
abbrev S4096x1024 : Shape := ⟨2, ![4096, 1024]⟩
abbrev S4096x64 : Shape := ⟨2, ![4096, 64]⟩
abbrev S64x16 : Shape := ⟨2, ![64, 16]⟩
abbrev S1x1024 : Shape := ⟨2, ![1, 1024]⟩
abbrev S2048x1024 : Shape := ⟨2, ![2048, 1024]⟩

abbrev nBuf : Space → Nat
  | .hbm => 45
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S64, .f32⟩
  | .hbm, ⟨2, _⟩ => ⟨S65536x1024, .f32⟩
  | .hbm, ⟨3, _⟩ => ⟨S1024, .i32⟩
  | .hbm, ⟨4, _⟩ => ⟨S1024x1, .i32⟩
  | .hbm, ⟨5, _⟩ => ⟨S64, .i32⟩
  | .hbm, ⟨6, _⟩ => ⟨S1x64, .i32⟩
  | .hbm, ⟨7, _⟩ => ⟨S_, .i32⟩
  | .hbm, ⟨8, _⟩ => ⟨S_, .i32⟩
  | .hbm, ⟨9, _⟩ => ⟨S1024x1, .i32⟩
  | .hbm, ⟨10, _⟩ => ⟨S1024x1, .i32⟩
  | .hbm, ⟨11, _⟩ => ⟨S1024x1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S1024x1, .i32⟩
  | .hbm, ⟨16, _⟩ => ⟨S1024x1, .i32⟩
  | .hbm, ⟨17, _⟩ => ⟨S_, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i32⟩
  | .hbm, ⟨22, _⟩ => ⟨S1024x1, .i32⟩
  | .hbm, ⟨23, _⟩ => ⟨S1024x1, .i32⟩
  | .hbm, ⟨24, _⟩ => ⟨S1024x1, .i32⟩
  | .hbm, ⟨25, _⟩ => ⟨S1024x64, .i32⟩
  | .hbm, ⟨26, _⟩ => ⟨S1024x64, .i32⟩
  | .hbm, ⟨27, _⟩ => ⟨S1024x64, .i1⟩
  | .hbm, ⟨28, _⟩ => ⟨S1024x64, .f32⟩
  | .hbm, ⟨29, _⟩ => ⟨S1x64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64x16, .f32⟩
  | .hbm, ⟨41, _⟩ => ⟨S1024, .f32⟩
  | .hbm, ⟨42, _⟩ => ⟨S1x1024, .f32⟩
  | .hbm, ⟨43, _⟩ => ⟨S65536x1024, .f32⟩
  | .hbm, ⟨44, _⟩ => ⟨S32x2048x1024, .f32⟩
  | .local _ .vmem, ⟨0, _⟩ => ⟨S4096x1024, .f32⟩
  | .local _ .vmem, ⟨1, _⟩ => ⟨S4096x1024, .f32⟩
  | .local _ .vmem, ⟨2, _⟩ => ⟨S1024x64, .f32⟩
  | .local _ .vmem, ⟨3, _⟩ => ⟨S1x64, .f32⟩
  | .local _ .vmem, ⟨4, _⟩ => ⟨S2048x1024, .f32⟩
  | .local _ .vmem, ⟨5, _⟩ => ⟨S2048x1024, .f32⟩
  | .local _ .vmem, ⟨6, _⟩ => ⟨S1x1024, .f32⟩
  | .local _ .vmem, ⟨7, _⟩ => ⟨S2048x1024, .f32⟩
  | .local _ .vmem, ⟨8, _⟩ => ⟨S2048x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call1_cst : Ref sig .tc := ⟨.hbm, 36, rfl⟩
abbrev main_call1_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x2048x1024_S65536x1024 : S32x2048x1024.ShapeCasts S65536x1024
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  inb_S1x64_S1x64_0_0 : ∀ a, (![0, 0] : Fin 2 → Nat) a + S1x64.size a ≤ S1x64.size a
  h_S1x64 : 0 < S1x64.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S1x64_S1x64 : S1x64.ShapeCasts S1x64
  reduces_S4096x64_S64 : S4096x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  bcast_S64_S64x16_0 : S64.BroadcastsInDim S64x16 (![0] : Fin 1 → Fin S64x16.rank)
  shapeCasts_S64x16_S1024 : S64x16.ShapeCasts S1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S65536x1024_S32x2048x1024 : S65536x1024.ShapeCasts S32x2048x1024
  dot_S4096x1024_S1024x64_S4096x64_1_0_0_1_n_n_wf : DotDims.WF S4096x1024 S1024x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S65536x1024.size a
  hwx0_0 : ∀ i : grid0.Coords, EltTy.bits .f32 = 32 ∨ (Rect.block (s := S65536x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S65536x1024.size a
  hwx1_0 : ∀ i : grid1.Coords, EltTy.bits .f32 = 32 ∨ (Rect.block (s := S65536x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S65536x1024.size a
  hwx1_2 : ∀ i : grid1.Coords, EltTy.bits .f32 = 32 ∨ (Rect.block (s := S65536x1024) S2048x1024.size (cc1_transform_2 i) (hinb1_2 i)).WholeWords (EltTy.packing .f32)

variable [Facts₀]

def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf

abbrev win0_0 : Pipeline.Window sig grid0 :=
  Pipeline.Window.ofSpec (Memref.whole main_v0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x2048x1024 : Shape := ⟨3, ![32, 2048, 1024]⟩
abbrev S64 : Shape := ⟨1, ![64]⟩
abbrev S32x2048x64x16 : Shape := ⟨4, ![32, 2048, 64, 16]⟩
abbrev S_ : Shape := ⟨0, ![]⟩
abbrev S1x1x64x1 : Shape := ⟨4, ![1, 1, 64, 1]⟩

abbrev nBuf : Space → Nat
  | .hbm => 19
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S64, .f32⟩
  | .hbm, ⟨2, _⟩ => ⟨S32x2048x64x16, .f32⟩
  | .hbm, ⟨3, _⟩ => ⟨S32x2048x64x16, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x1x64x1, .f32⟩
  | .hbm, ⟨16, _⟩ => ⟨S32x2048x64x16, .f32⟩
  | .hbm, ⟨17, _⟩ => ⟨S32x2048x64x16, .f32⟩
  | .hbm, ⟨18, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  shapeCasts_S32x2048x1024_S32x2048x64x16 : S32x2048x1024.ShapeCasts S32x2048x64x16
  reducesTo_S32x2048x64x16_S64_d0_1_3 : S32x2048x64x16.ReducesTo [0, 1, 3] S64
  h_S_ : 0 < S_.numel
  bcast_S_S64 : S_.BroadcastsInDim S64 (![] : Fin 0 → Fin S64.rank)
  bcast_S64_S1x1x64x1_2 : S64.BroadcastsInDim S1x1x64x1 (![2] : Fin 1 → Fin S1x1x64x1.rank)
  bcast_S1x1x64x1_S32x2048x64x16_0_1_2_3 : S1x1x64x1.BroadcastsInDim S32x2048x64x16 (![0, 1, 2, 3] : Fin 4 → Fin S32x2048x64x16.rank)
  shapeCasts_S32x2048x64x16_S32x2048x1024 : S32x2048x64x16.ShapeCasts S32x2048x1024

variable [Facts₀]

class Facts : Prop extends Facts₀ where

variable [Facts]
-- ==== Proof.Chain.lean ====
/-
  The function both programs compute, over the extended reals.

  For the input `x : [32, 2048, 1024]` (65536 rows of 1024 columns, the columns in 64 groups of 16) and the thresholds
  `θ : [64]`:
    * `groupSq x g`   — the sum of `x²` over all rows and the 16 columns of group `g`;
    * `scaleOf s θ`   — per group, `max (√(s + ε) − θ) 0 / √(s + ε)`, written with the host operations both programs
                        apply to a `[64]` vector (the same words `ε` and `0` on both sides, never evaluated);
    * `result x θ`    — each entry of `x` times the scale of its column's group.
-/
import Idealize.ShloMosaic.PureOps.Ideal
import Idealize.ShloMosaic.Lib.ValueIdx

noncomputable section

namespace Cert.GroupShrink

open Idealize.ShloMosaic Idealize.ShloMosaic.ValueIdx

/-- The input's shape. -/
abbrev XS : Shape := ⟨3, ![32, 2048, 1024]⟩
/-- One value per group. -/
abbrev GS : Shape := ⟨1, ![64]⟩
/-- A scalar. -/
abbrev S0 : Shape := ⟨0, ![]⟩

/-- Flat row `n` (batch `n / 2048`, time `n % 2048`), column `e` of group `g`. -/
abbrev rowCol (n : Fin 65536) (g : Fin 64) (e : Fin 16) : XS.Idx :=
  ix3 (⟨n.val / 2048, by have := n.isLt; omega⟩ : Fin 32) (⟨n.val % 2048, Nat.mod_lt _ (by decide)⟩ : Fin 2048)
    (⟨g.val * 16 + e.val, by have := g.isLt; have := e.isLt; omega⟩ : Fin 1024)

/-- The sum of squares of group `g`'s entries: all rows, the group's 16 columns. -/
def groupSq (x : XS.Idx → EReal) : GS.Idx → EReal :=
  fun j => ∑ n : Fin 65536, ∑ e : Fin 16,
    x (rowCol n ⟨(j 0).val, (j 0).isLt⟩ e) * x (rowCol n ⟨(j 0).val, (j 0).isLt⟩ e)

/-- The per-group scale `max (√(s + ε) − θ) 0 / √(s + ε)` as the host computes it on `[64]` vectors. -/
def scaleOf (hb : S0.BroadcastsInDim GS (![] : Fin 0 → Fin GS.rank)) (s θ : FVec Ideal GS .f32) : FVec Ideal GS .f32 :=
  Host.divf
    (maximumf (subf (Host.sqrt (addf s (broadcastInDim GS ![] hb (constant (F := Ideal) S0 .f32 0x33D6BF95#32)))) θ)
      (broadcastInDim GS ![] hb (constant (F := Ideal) S0 .f32 0x00000000#32)))
    (Host.sqrt (addf s (broadcastInDim GS ![] hb (constant (F := Ideal) S0 .f32 0x33D6BF95#32))))

/-- The group of a column. -/
abbrev groupOf (i : XS.Idx) : GS.Idx :=
  ix1 (⟨(i 2).val / 16, by have h : (i 2).val < 1024 := (i 2).isLt; omega⟩ : Fin 64)

/-- Every entry times the scale of its column's group. -/
def result (hb : S0.BroadcastsInDim GS (![] : Fin 0 → Fin GS.rank)) (x : XS.Idx → EReal) (θ : GS.Idx → EReal) :
    XS.Idx → EReal :=
  fun i => x i * scaleOf hb (groupSq x) θ (groupOf i)

end Cert.GroupShrink

end
-- ==== Proof.HostMid.lean ====
/-
  The host operations between and after the two kernel regions, read through the fold of @main's segments.

  After the first region its `[1, 64]` result is reshaped to `[64]`, turned into the per-group scale, repeated 16 times
  per group and laid out as the `[1, 1024]` row of per-column scales the second region reads; the flat view of the
  input, written once before the first region, is still what the second region's window 0 reads; and the program's
  result is the second region's `[65536, 1024]` result reshaped to `[32, 2048, 1024]`.
-/
import proofs.«166947_j15023795601934_1_alg».proof.Proof.Gen.KernelIdeal.Frame
import proofs.«166947_j15023795601934_1_alg».proof.Proof.Chain
import Idealize.ShloMosaic.Lib.Pipeline.Value
import Idealize.ShloMosaic.Lib.StableHlo.Run

noncomputable section

namespace Cert.GroupShrink.HostMid

open Idealize.ShloMosaic Idealize.ShloMosaic.TcCoe Idealize.SL.Sem
open Idealize.ShloMosaic.Pipeline (Dat)
open Cert.KernelIdeal Cert.KernelIdeal.Gen Cert.GroupShrink

variable (m : (ℓ : Loc nD τ sig) → Buf (Elt Ideal) ℓ) (ρ : Dev nD → PrngReg)

/-- The program's result is the second region's result array, reshaped. -/
theorem result_eq (c : Dev nD) :
    W9 m ρ c (Proc.devRef .tc main_v22)
      = shapeCast S32x2048x1024 ((dat1 (V7 m ρ) c).arrAt 2 cfg1.N) Facts₀.shapeCasts_S65536x1024_S32x2048x1024 := by
  show StableHlo.after hostOps2 (W8 m ρ c) (Proc.devRef .tc main_v22) = _
  after_results
  rw [show W8 m ρ c (Proc.devRef .tc main_v21) = (dat1 (V7 m ρ) c).arrAt 2 cfg1.N from W8_arr m ρ c 2]
  rfl

/-- The second region's window 0 still reads what the first region's window 0 read: the flat view is written once,
    the first region only reads it, and no operation in between writes it. -/
theorem entry1_flat (c : Dev nD) : V7 m ρ c main_v0 = V3 m ρ c main_v0 := by
  show StableHlo.after hostOps1_2 (StableHlo.after hostOps1_1 (StableHlo.after hostOps1 (W4 m ρ c))) (Proc.devRef .tc main_v0) = _
  after_results
  exact (W4_arr m ρ c 0).trans ((dat0 (V3 m ρ) c).arrAt_in 0 rfl _)

/-- The thresholds reach the middle stretch as launched. -/
theorem mid_theta (c : Dev nD) : W4 m ρ c (Proc.devRef .tc main_arg1) = m ((c : Thread nD τ).loc main_arg1) := by
  refine (W4_of_ne m ρ c main_arg1 (by decide)).trans ?_
  show StableHlo.after hostOps0_2 (StableHlo.after hostOps0_1 (StableHlo.after hostOps0 (W0 m ρ c))) (Proc.devRef .tc main_arg1) = _
  after_results <;> rfl

/-- The second region's window 1 reads the row of per-column scales: the first region's result reshaped to `[64]`, turned
    into the per-group scale, each group's value repeated over its 16 columns. -/
theorem entry1_scale (c : Dev nD) :
    V7 m ρ c main_v20
      = shapeCast S1x1024 (shapeCast S1024 (broadcastInDim S64x16 ![0] Facts₀.bcast_S64_S64x16_0
          (scaleOf Facts₀.bcast_S_S64
            (shapeCast S64 ((dat0 (V3 m ρ) c).arrAt 2 cfg0.N) Facts₀.shapeCasts_S1x64_S64)
            (m ((c : Thread nD τ).loc main_arg1))))
          Facts₀.shapeCasts_S64x16_S1024) Facts₀.shapeCasts_S1024_S1x1024 := by
  show StableHlo.after hostOps1_2 (StableHlo.after hostOps1_1 (StableHlo.after hostOps1 (W4 m ρ c))) (Proc.devRef .tc main_v20) = _
  after_results
  rw [show W4 m ρ c (Proc.devRef .tc main_v10) = (dat0 (V3 m ρ) c).arrAt 2 cfg0.N from W4_arr m ρ c 2, mid_theta m ρ c]
  rfl

end Cert.GroupShrink.HostMid

end
-- ==== Proof.Idx.lean ====
/-
  Index vocabulary and the two region results as whole-array functions.

  The program views the input `x : [32, 2048, 1024]` as a flat `[65536, 1024]` array of rows. Its 1024 columns fall
  into 64 groups of 16 consecutive columns; group `g` owns columns `16 g … 16 g + 15`. The first kernel region walks
  16 tiles of 4096 rows and, per group, accumulates the squares of every entry of the group's columns (the within-row
  part of the sum is a product with the 1024 × 64 membership matrix). The second region multiplies every entry by the
  scale of its column.
-/
import proofs.«166947_j15023795601934_1_alg».proof.KernelIdeal
import Idealize.ShloMosaic.PureOps.Ideal

noncomputable section

namespace Cert.GroupShrink

open Idealize.ShloMosaic Cert.KernelIdeal

/-- Row `r` of tile `t`, column `k`, in the flat `[65536, 1024]` view: row `4096 t + r`. -/
abbrev tileIdx (t : Fin 16) (r : Fin 4096) (k : Fin 1024) : S65536x1024.Idx := fun a => match a with
  | ⟨0, _⟩ => ⟨t.val * 4096 + r.val, by have := t.isLt; have := r.isLt; show t.val * 4096 + r.val < 65536; omega⟩
  | ⟨1, _⟩ => ⟨k.val, k.isLt⟩

/-- Entry `(k, g)` of the `[1024, 64]` membership matrix. -/
abbrev memIdx (k : Fin 1024) (g : Fin 64) : S1024x64.Idx := fun a => match a with
  | ⟨0, _⟩ => ⟨k.val, k.isLt⟩
  | ⟨1, _⟩ => ⟨g.val, g.isLt⟩

/-- The column of a flat index, as an index into the `[1, 1024]` row of per-column scales. -/
abbrev colIdx (i : S65536x1024.Idx) : S1x1024.Idx := fun a => match a with
  | ⟨0, _⟩ => ⟨0, Nat.one_pos⟩
  | ⟨1, _⟩ => ⟨(i 1).val, (i 1).isLt⟩

/-- What the first region leaves in its `[1, 64]` result: for group `g`, the sum over the 16 tiles, the 4096 rows of
    a tile and the 1024 columns of `x² · M`, `M` the membership matrix as the region finds it. -/
def groupAcc (x : S65536x1024.Idx → EReal) (M : S1024x64.Idx → EReal) : S1x64.Idx → EReal :=
  fun j => ∑ t : Fin 16, ∑ r : Fin 4096, ∑ k : Fin 1024,
    (x (tileIdx t r k) * x (tileIdx t r k)) * M (memIdx k ⟨(j 1).val, (j 1).isLt⟩)

/-- What the second region leaves in its `[65536, 1024]` result: each entry times the scale of its column. -/
def scaled (x : S65536x1024.Idx → EReal) (s : S1x1024.Idx → EReal) : S65536x1024.Idx → EReal :=
  fun i => x i * s (colIdx i)

end Cert.GroupShrink

end
-- ==== Proof.HostPre.lean ====
/-
  What the first kernel region finds in its two input arrays: the host operations before it leave the flat
  `[65536, 1024]` view of the input, and the 1024 × 64 membership matrix whose `(k, g)` entry is `1` when column `k`
  belongs to group `g` (that is, `k / 16 = g`) and `0` otherwise. The matrix is computed on the host from two iotas by
  a floor division by 16 (spelled, for signed words, as a truncating division corrected where the signs differ and the
  remainder is not zero — never the case for `0 ≤ k < 1024`), an equality compare, and a conversion of the one-bit
  result to a float.
-/
import proofs.«166947_j15023795601934_1_alg».proof.Proof.Gen.KernelIdeal.Frame
import proofs.«166947_j15023795601934_1_alg».proof.Proof.Idx
import Idealize.ShloMosaic.Lib.Pipeline.Value
import Idealize.ShloMosaic.Lib.ValueIdx
import Idealize.ShloMosaic.Lib.StableHlo.Run
import Idealize.ShloMosaic.Lib.StableHlo.Predicate

noncomputable section

namespace Cert.GroupShrink.HostPre

open Idealize.ShloMosaic Idealize.ShloMosaic.TcCoe Idealize.SL.Sem
open Cert.KernelIdeal Cert.KernelIdeal.Gen Cert.GroupShrink

variable (m : (ℓ : Loc nD τ sig) → Buf (Elt Ideal) ℓ) (ρ : Dev nD → PrngReg)

/-- The first region's window 0 reads the flat view of the input. -/
theorem entry0_flat (c : Dev nD) :
    V3 m ρ c main_v0
      = shapeCast S65536x1024 (m ((c : Thread nD τ).loc main_arg0)) Facts₀.shapeCasts_S32x2048x1024_S65536x1024 := by
  show StableHlo.after hostOps0_2 (StableHlo.after hostOps0_1 (StableHlo.after hostOps0 (W0 m ρ c)))
    (Proc.devRef .tc main_v0) = _
  after_results
  rfl

/-- The array the first region's window 1 reads, at its literal type. -/
abbrev memberArr (c : Dev nD) : S1024x64.Idx → EReal := V3 m ρ c main_v9

/-- The column numbers `0 … 1023` as a `[1024, 1]` column of words. -/
private abbrev colK : S1024x1.Idx → BitVec 32 :=
  broadcastInDim S1024x1 ![0] bcast_S1024_S1024x1_0 (iotaInDim S1024 32 0)

/-- A word repeated down a `[1024, 1]` column. -/
private abbrev colOf (v : S_.Idx → BitVec 32) : S1024x1.Idx → BitVec 32 :=
  broadcastInDim S1024x1 ![] bcast_S_S1024x1 v

/-- The truncating quotient of each column number by 16. -/
private abbrev truncQ : S1024x1.Idx → BitVec 32 := Host.divsi colK (colOf (constantI S_ 32 16#32))

/-- The floor quotient: one less than the truncating quotient where the signs of the operands differ and the remainder
    is not zero, the truncating quotient elsewhere. -/
private abbrev floorQ : S1024x1.Idx → BitVec 32 :=
  select
    (andi (cmpi .ne (signi colK) (colOf (signi (constantI S_ 32 16#32))))
      (cmpi .ne (Host.remsi colK (colOf (constantI S_ 32 16#32))) (colOf (constantI S_ 32 0#32))))
    (subi truncQ (colOf (constantI S_ 32 1#32)))
    truncQ

/-- The group numbers `0 … 63` as a `[1, 64]` row of words. -/
private abbrev rowG : S1x64.Idx → BitVec 32 :=
  broadcastInDim S1x64 ![1] bcast_S64_S1x64_1 (iotaInDim S64 32 0)

/-- The membership matrix as the composition of the host operations that compute it. -/
private theorem memberArr_eq (c : Dev nD) :
    memberArr m ρ c
      = uitofp (F := Ideal) .f32
          (cmpi .eq (broadcastInDim S1024x64 ![0, 1] bcast_S1024x1_S1024x64_0_1 floorQ)
            (broadcastInDim S1024x64 ![0, 1] bcast_S1x64_S1024x64_0_1 rowG)) := by
  show StableHlo.after hostOps0_2 (StableHlo.after hostOps0_1 (StableHlo.after hostOps0 (W0 m ρ c)))
    (Proc.devRef .tc main_v9) = _
  after_results_simp
  rfl

/-- The sign of a word read as a two's-complement integer: `-1`, `0` or `1`. -/
private def sgn (x : BitVec 32) : BitVec 32 := if x = 0 then 0 else if x.msb then -1 else 1

/-- Floor division by 16 of a word below 1024, spelled through the truncating division: both operands are
    non-negative, so no correction is made and the truncating quotient is the quotient of the values. -/
private theorem floorQ_word : ∀ d : Fin 1024,
    Scalar.select
      (IntOp.andi (IntOp.cmpi .ne (sgn (BitVec.ofNat 32 d.val)) (sgn 16#32))
        (IntOp.cmpi .ne (IntOp.remsi .host (BitVec.ofNat 32 d.val) 16#32) 0#32))
      (IntOp.subi (IntOp.divsi .host (BitVec.ofNat 32 d.val) 16#32) 1#32)
      (IntOp.divsi .host (BitVec.ofNat 32 d.val) 16#32)
    = BitVec.ofNat 32 (d.val / 16) := by decide +kernel

/-- Entry `(k, g)` of the membership matrix, as the row-and-column index the broadcast lemmas speak of. -/
private theorem memIdx_eq_ij (k : Fin 1024) (g : Fin 64) : memIdx k g = StableHlo.Predicate.ij k g := by
  funext a; match a with | ⟨0, _⟩ => rfl | ⟨1, _⟩ => rfl

/-- The conversion of the one-bit result of an equality compare of two small numbers: `1` when they are equal, `0`
    otherwise (words below `2 ^ 32` are equal exactly when their values are). -/
private theorem uitofp_cmpi_eq (a b : ℕ) (ha : a < 2 ^ 32) (hb : b < 2 ^ 32) :
    FloatOps.uitofp (F := Ideal) .f32 (IntOp.cmpi .eq (BitVec.ofNat 32 a) (BitVec.ofNat 32 b))
      = if a = b then (1 : EReal) else 0 := by
  by_cases h : a = b
  · rw [if_pos h, h, StableHlo.Predicate.cmpi_eq_iff.mpr rfl]
    show (((1#1 : BitVec 1).toNat : ℝ) : EReal) = 1
    simp
  · have hne : BitVec.ofNat 32 a ≠ BitVec.ofNat 32 b := by
      intro he
      have := congrArg BitVec.toNat he
      simp only [BitVec.toNat_ofNat] at this
      omega
    have h0 : IntOp.cmpi .eq (BitVec.ofNat 32 a) (BitVec.ofNat 32 b) = 0#1 := by
      simp only [IntOp.cmpi, beq_eq_false_iff_ne.mpr hne]; rfl
    rw [if_neg h, h0]
    show (((0#1 : BitVec 1).toNat : ℝ) : EReal) = 0
    simp

open StableHlo.Predicate in
/-- It is the membership matrix: `1` at `(k, g)` when `k / 16 = g`, else `0`. -/
theorem entry0_member (c : Dev nD) (k : Fin 1024) (g : Fin 64) :
    memberArr m ρ c (memIdx k g) = if k.val / 16 = g.val then 1 else 0 := by
  have hrow : rowG (i1q g) = BitVec.ofNat 32 g.val := by
    show broadcastInDim S1x64 ![1] bcast_S64_S1x64_1 (iotaInDim S64 32 0) (i1q g) = _
    rw [bcast_row1]; rfl
  have hcol : colK (ixP k) = BitVec.ofNat 32 k.val := by
    show broadcastInDim S1024x1 ![0] bcast_S1024_S1024x1_0 (iotaInDim S1024 32 0) (ixP k) = _
    rw [bcast_col1]; rfl
  have hconst (v : S_.Idx → BitVec 32) : colOf v (ixP k) = v (Shape.Idx.first (by decide)) :=
    bcast_scalar _ (by decide) v (ixP k)
  -- row `k` of the floor quotient is the word of `k / 16`: every operation of its chain acts entry by entry
  have hfloor : floorQ (ixP k) = BitVec.ofNat 32 (k.val / 16) := by
    rw [← floorQ_word k, ← hcol]
    show Scalar.select
      (IntOp.andi (IntOp.cmpi .ne (sgn (colK (ixP k))) (colOf (signi (constantI S_ 32 16#32)) (ixP k)))
        (IntOp.cmpi .ne (IntOp.remsi .host (colK (ixP k)) (colOf (constantI S_ 32 16#32) (ixP k)))
          (colOf (constantI S_ 32 0#32) (ixP k))))
      (IntOp.subi (IntOp.divsi .host (colK (ixP k)) (colOf (constantI S_ 32 16#32) (ixP k)))
        (colOf (constantI S_ 32 1#32) (ixP k)))
      (IntOp.divsi .host (colK (ixP k)) (colOf (constantI S_ 32 16#32) (ixP k))) = _
    simp only [hconst]
    rfl
  rw [memberArr_eq, memIdx_eq_ij]
  show FloatOps.uitofp (F := Ideal) .f32 (IntOp.cmpi .eq
      (broadcastInDim S1024x64 ![0, 1] bcast_S1024x1_S1024x64_0_1 floorQ (ij k g))
      (broadcastInDim S1024x64 ![0, 1] bcast_S1x64_S1024x64_0_1 rowG (ij k g))) = _
  rw [bcast_of_col, bcast_of_row, hfloor, hrow]
  exact uitofp_cmpi_eq _ _ (by have := k.isLt; omega) (by have := g.isLt; omega)

end Cert.GroupShrink.HostPre

end
-- ==== Proof.SumRegion.lean ====
/-
  The first kernel region (the per-group sum of squares) as a value: what its `[1, 64]` result array holds after the
  sixteen grid points.
-/
import proofs.«166947_j15023795601934_1_alg».proof.Proof.Gen.KernelIdeal.Frame
import proofs.«166947_j15023795601934_1_alg».proof.Proof.Idx
import Idealize.ShloMosaic.Lib.Pipeline.Value
import Idealize.ShloMosaic.Lib.ValueIdx
import Idealize.ShloMosaic.PureOps.Ideal.Laws

noncomputable section

namespace Cert.GroupShrink.SumRegion

open Idealize.ShloMosaic Idealize.ShloMosaic.TcCoe Idealize.SL.Sem
open Idealize.ShloMosaic.Pipeline (Dat)
open Cert.KernelIdeal Cert.KernelIdeal.Gen Cert.GroupShrink

/-! ## What each control case leaves in the result's staging buffer -/

section Cases

variable {F : FTy → Type} [FloatOps F]

private theorem hz : (![0, 0] : Fin 2 → Nat) = fun _ => 0 := funext fun a => by fin_cases a <;> rfl

/-- Every point but the first: the one covering store's payload, over the three whole buffers as loaded. -/
private theorem out_B (c : Dev nD) (i : grid0.Coords) (a1 : Memref sig .tc .vmem S4096x1024 .f32) (h1 : a1.IsWhole)
    (a2 : Memref sig .tc .vmem S1024x64 .f32) (h2 : a2.IsWhole) (a3 : Memref sig .tc .vmem S1x64 .f32) (h3 : a3.IsWhole)
    (hc : ¬cond0_0 i) (x0 : Vec F S4096x1024 .f32) (x1 : Vec F S1024x64 .f32) (xo : Vec F S1x64 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz]
  simp only [View.readAt_eq_ld, h1.read_unread, h2.read_unread, h3.read_unread,
    View.ld_unit_zero (S := S4096x1024) hz, View.ld_unit_zero (S := S1024x64) hz, View.ld_unit_zero (S := S1x64) hz]

/-- The first point: the zero block is stored, read back, and the tile's contribution added to it. -/
private theorem out_A (c : Dev nD) (i : grid0.Coords) (a1 : Memref sig .tc .vmem S4096x1024 .f32) (h1 : a1.IsWhole)
    (a2 : Memref sig .tc .vmem S1024x64 .f32) (h2 : a2.IsWhole) (a3 : Memref sig .tc .vmem S1x64 .f32) (h3 : a3.IsWhole)
    (hc : cond0_0 i) (x0 : Vec F S4096x1024 .f32) (x1 : Vec F S1024x64 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x64) hz, View.readCov_unit_zero (S := S1x64) _ hz]
  simp only [View.readAt_eq_ld, h1.read_unread, h2.read_unread,
    View.ld_unit_zero (S := S4096x1024) hz, View.ld_unit_zero (S := S1024x64) hz]

end Cases

/-! ## The update's payload at an index, over the extended reals -/

section Payload

open Idealize.ShloMosaic.ValueIdx

/-! The product's operand indices, axis by axis: the left operand is read at (row of the result, contraction position),
    the right one at (contraction position, column of the result). -/

private theorem lhs_0 (j : S4096x64.Idx) (k : dot_S4096x1024_S1024x64_S4096x64_1_0_0_1_n_n.contr.Idx) :
    (dot_S4096x1024_S1024x64_S4096x64_1_0_0_1_n_n.lhsIdx j k 0).val = (j 0).val := by
  simp [DotDims.lhsIdx, dot_S4096x1024_S1024x64_S4096x64_1_0_0_1_n_n]
  rfl

private theorem lhs_1 (j : S4096x64.Idx) (k : dot_S4096x1024_S1024x64_S4096x64_1_0_0_1_n_n.contr.Idx) :
    (dot_S4096x1024_S1024x64_S4096x64_1_0_0_1_n_n.lhsIdx j k 1).val = (k ⟨0, by decide⟩).val :=
  DotDims.lhsIdx_val_of_single dot_S4096x1024_S1024x64_S4096x64_1_0_0_1_n_n (cl := 1) rfl j k

private theorem rhs_0 (j : S4096x64.Idx) (k : dot_S4096x1024_S1024x64_S4096x64_1_0_0_1_n_n.contr.Idx) :
    (dot_S4096x1024_S1024x64_S4096x64_1_0_0_1_n_n.rhsIdx j k 0).val = (k ⟨0, by decide⟩).val :=
  DotDims.rhsIdx_val_of_single dot_S4096x1024_S1024x64_S4096x64_1_0_0_1_n_n (cr := 0) rfl j k

private theorem rhs_1 (j : S4096x64.Idx) (k : dot_S4096x1024_S1024x64_S4096x64_1_0_0_1_n_n.contr.Idx) :
    (dot_S4096x1024_S1024x64_S4096x64_1_0_0_1_n_n.rhsIdx j k 1).val = (j 1).val := by
  simp [DotDims.rhsIdx, dot_S4096x1024_S1024x64_S4096x64_1_0_0_1_n_n]
  rfl

/-- The product of the squared tile and the membership matrix at row `r`, group `g`: the sum over the 1024 columns. -/
private theorem matmul_at (x0 : FVec Ideal S4096x1024 .f32) (x1 : FVec Ideal S1024x64 .f32) (r : Fin 4096) (g : Fin 64) :
    matmul dot_S4096x1024_S1024x64_S4096x64_1_0_0_1_n_n none (mulf x0 x0) x1 (constant (F := Ideal) S4096x64 .f32 0x00000000#32) (ix2 r g)
      = ∑ k : Fin 1024, (x0 (ix2 r k) * x0 (ix2 r k)) * x1 (ix2 k g) := by
  refine (Ideal.matmul_constant_zero_apply dot_S4096x1024_S1024x64_S4096x64_1_0_0_1_n_n none (mulf x0 x0) x1 (ix2 r g)).trans ?_
  rw [← Equiv.sum_comp (contrEquiv1 dot_S4096x1024_S1024x64_S4096x64_1_0_0_1_n_n 1024 rfl rfl).symm]
  refine Finset.sum_congr rfl fun k _ => ?_
  have hl : dot_S4096x1024_S1024x64_S4096x64_1_0_0_1_n_n.lhsIdx (ix2 r g)
      ((contrEquiv1 dot_S4096x1024_S1024x64_S4096x64_1_0_0_1_n_n 1024 rfl rfl).symm k) = ix2 r k :=
    Shape.idx_ext₂ (lhs_0 _ _) ((lhs_1 _ _).trans (contrEquiv1_symm_val _ 1024 rfl rfl k))
  have hr : dot_S4096x1024_S1024x64_S4096x64_1_0_0_1_n_n.rhsIdx (ix2 r g)
      ((contrEquiv1 dot_S4096x1024_S1024x64_S4096x64_1_0_0_1_n_n 1024 rfl rfl).symm k) = ix2 k g :=
    Shape.idx_ext₂ ((rhs_0 _ _).trans (contrEquiv1_symm_val _ 1024 rfl rfl k)) (rhs_1 _ _)
  rw [hl, hr]
  rfl

/-- The lane sum over axis 0 of a `[4096, 64]` vector at lane `g`: the sum over the 4096 rows. -/
private theorem laneSum_at (src : FVec Ideal S4096x64 .f32) (hφ : FKind.Formats .f32)
    (hacc : (0x00000000#32 : BitVec 32) = FKind.add.neutral .f32 hφ) (g : Fin 64) :
    multiReduction .add [0] S64 src 0x00000000#32 reduces_S4096x64_S64 hφ hacc (ix1 g) = ∑ r : Fin 4096, src (ix2 r g) := by
  refine (Ideal.multiReduction_add_single src 0x00000000#32 reduces_S4096x64_S64 hφ hacc (ix1 g)).trans ?_
  refine Finset.sum_congr rfl fun r _ => congrArg src ?_
  funext a
  match a with
  | ⟨0, _⟩ => rfl
  | ⟨1, _⟩ => rfl

/-- A `[64]` vector viewed `[1, 64]` reads lane `g` at `(0, g)`. -/
private theorem addUnit_at {α : Type} (v : S64.Idx → α) (z : Fin 1) (g : Fin 64) :
    shapeCast S1x64 v shapeCasts_S64_S1x64 (ix2 z g) = v (ix1 g) :=
  shapeCast_apply v shapeCasts_S64_S1x64 (ix2 z g) (ix1 g) (by
    rw [Shape.rowMajor_val_one, Shape.rowMajor_val_two]
    show g.val = z.val * 64 + g.val
    have := z.isLt; omega)

/-- One tile's contribution to group `g`: over the tile's 4096 rows and the 1024 columns, the square of the entry times
    the column's membership in `g`. -/
private def tileSum (x0 : Vec Ideal S4096x1024 .f32) (x1 : Vec Ideal S1024x64 .f32) (g : Fin 64) : EReal :=
  ∑ r : Fin 4096, ∑ k : Fin 1024, (x0 (ix2 r k) * x0 (ix2 r k)) * x1 (ix2 k g)

/-- The update's payload at `(0, g)`: what the buffer held there plus the tile's contribution to group `g`. -/
private theorem pay2_at (x0 : Vec Ideal S4096x1024 .f32) (x1 : Vec Ideal S1024x64 .f32) (xo : Vec Ideal S1x64 .f32)
    (z : Fin 1) (g : Fin 64) :
    k0_pay2 (F := Ideal) x0 x1 xo (ix2 z g) = xo (ix2 z g) + tileSum x0 x1 g := by
  unfold k0_pay2
  dsimp only
  simp only [shapeCast_self]
  refine (addf_apply _ _ _).trans (congrArg (xo (ix2 z g) + ·) ?_)
  refine (addUnit_at _ z g).trans ?_
  refine (laneSum_at _ _ _ g).trans ?_
  exact Finset.sum_congr rfl fun r _ => matmul_at x0 x1 r g

/-- The reset's payload is the zero block. -/
private theorem pay1_at (z : Fin 1) (g : Fin 64) : k0_pay1 (F := Ideal) (ix2 z g) = 0 := by
  unfold k0_pay1
  exact Ideal.ofBits_zero_f32

end Payload

/-! ## The windows' blocks, read off the arrays as the region finds them -/

section Blocks

open Idealize.ShloMosaic.ValueIdx

variable (V : (c : Dev nD) → (b : Ref sig .tc) → Buf (Elt Ideal) ((c : Thread nD τ).loc b))

/-- The flat input and the membership matrix as the region finds them, and the two input windows' blocks at a point. -/
private abbrev xarr (c : Dev nD) : Vec Ideal S65536x1024 .f32 := V c main_v0
private abbrev marr (c : Dev nD) : Vec Ideal S1024x64 .f32 := V c main_v9
private abbrev xblk (c : Dev nD) (t : Fin cfg0.N) : Vec Ideal S4096x1024 .f32 := iblk0 V c 0 t
private abbrev mblk (c : Dev nD) (t : Fin cfg0.N) : Vec Ideal S1024x64 .f32 := iblk0 V c 1 t

/-- Window 0's block index at point `t` is `(t, 0)`; window 1's is `(0, 0)`. -/
private theorem idx0 : ∀ t : Fin cfg0.N, win0_0.index t 0 = t.val ∧ win0_0.index t 1 = 0 :=
  (by decide +kernel : ∀ t : Fin grid0.N, win0_0.index t 0 = t.val ∧ win0_0.index t 1 = 0)
private theorem idx1 : ∀ t : Fin cfg0.N, win0_1.index t 0 = 0 ∧ win0_1.index t 1 = 0 :=
  (by decide +kernel : ∀ t : Fin grid0.N, win0_1.index t 0 = 0 ∧ win0_1.index t 1 = 0)

private theorem xblk_at (c : Dev nD) (t : Fin cfg0.N) (t' : Fin 16) (ht : t'.val = t.val) (r : Fin 4096) (k : Fin 1024) :
    xblk V c t (ix2 r k) = xarr V c (tileIdx t' r k) := by
  unfold xblk iblk0
  rw [View.read_apply]
  show V c main_v0 _ = V c main_v0 (tileIdx t' r k)
  congr 1
  funext a
  apply Fin.ext
  match a with
  | ⟨0, _⟩ =>
    show win0_0.index t 0 * 4096 + 1 * r.val = t'.val * 4096 + r.val
    rw [(idx0 t).1, ht]; omega
  | ⟨1, _⟩ =>
    show win0_0.index t 1 * 1024 + 1 * k.val = k.val
    rw [(idx0 t).2]; omega

private theorem mblk_at (c : Dev nD) (t : Fin cfg0.N) (k : Fin 1024) (g : Fin 64) :
    mblk V c t (ix2 k g) = marr V c (memIdx k g) := by
  unfold mblk iblk0
  rw [View.read_apply]
  show V c main_v9 _ = V c main_v9 (memIdx k g)
  congr 1
  funext a
  apply Fin.ext
  match a with
  | ⟨0, _⟩ =>
    show win0_1.index t 0 * 1024 + 1 * k.val = k.val
    rw [(idx1 t).1]; omega
  | ⟨1, _⟩ =>
    show win0_1.index t 1 * 64 + 1 * g.val = g.val
    rw [(idx1 t).2]; omega

end Blocks

/-! ## The running sum over the points -/

section Acc

open Idealize.ShloMosaic.ValueIdx

variable (V : (c : Dev nD) → (b : Ref sig .tc) → Buf (Elt Ideal) ((c : Thread nD τ).loc b))

/-- Tile `t`'s contribution to group `g`, read off the whole arrays. -/
private def tileAcc (x : S65536x1024.Idx → EReal) (M : S1024x64.Idx → EReal) (t : Fin 16) (g : Fin 64) : EReal :=
  ∑ r : Fin 4096, ∑ k : Fin 1024, (x (tileIdx t r k) * x (tileIdx t r k)) * M (memIdx k g)

/-- The same with the tile numbered by a natural: nothing past the sixteen tiles. -/
private def tileAccN (x : S65536x1024.Idx → EReal) (M : S1024x64.Idx → EReal) (s : Nat) (g : Fin 64) : EReal :=
  if hs : s < 16 then tileAcc x M ⟨s, hs⟩ g else 0

/-- A point's contribution through the windows is its tile's, off the arrays. -/
private theorem tile_eq (c : Dev nD) (t : Fin cfg0.N) (g : Fin 64) :
    tileSum (xblk V c t) (mblk V c t) g = tileAccN (xarr V c) (marr V c) t.val g := by
  have hN : t.val < 16 := lt_of_lt_of_eq t.isLt (show cfg0.N = 16 from N_0)
  unfold tileAccN
  rw [dif_pos hN]
  unfold tileSum tileAcc
  refine Finset.sum_congr rfl fun r _ => Finset.sum_congr rfl fun k _ => ?_
  rw [xblk_at V c t ⟨t.val, hN⟩ rfl r k, mblk_at V c t k g]

/-- The first point leaves the zero block plus its tile's contribution. -/
private theorem outs_A (c : Dev nD) (t : Fin cfg0.N) (h0 : t.val % 16 = 0) (z : Fin 1) (g : Fin 64) :
    outsAt0 V c t.val t.isLt (ix2 z g) = tileSum (xblk V c t) (mblk V c t) g := by
  rw [outsAt0_A V c t h0]
  refine (congrFun (out_A (F := Ideal) c (grid0.coords t) (ms0_0 t) (hs0_0 t) (ms0_1 t) (hs0_1 t) (ms0_2 t) (hs0_2 t)
    ((hcond0_0 t).mpr h0) (xblk V c t) (mblk V c t)) (ix2 z g)).trans ?_
  refine (pay2_at (xblk V c t) (mblk V c t) (k0_pay1 (F := Ideal)) z g).trans ?_
  rw [pay1_at, zero_add]

/-- Every later point adds its tile's contribution to what the point before left. -/
private theorem outs_B (c : Dev nD) (t : Fin cfg0.N) (h0 : ¬t.val % 16 = 0) (z : Fin 1) (g : Fin 64) :
    outsAt0 V c t.val t.isLt (ix2 z g)
      = outsAt0 V c (t.val - 1) (Nat.lt_of_le_of_lt (Nat.sub_le _ _) t.isLt) (ix2 z g) + tileSum (xblk V c t) (mblk V c t) g := by
  rw [outsAt0_B V c t h0]
  refine (congrFun (out_B (F := Ideal) c (grid0.coords t) (ms0_0 t) (hs0_0 t) (ms0_1 t) (hs0_1 t) (ms0_2 t) (hs0_2 t)
    (fun h => h0 ((hcond0_0 t).mp h)) (xblk V c t) (mblk V c t)
    (outsAt0 V c (t.val - 1) (Nat.lt_of_le_of_lt (Nat.sub_le _ _) t.isLt))) (ix2 z g)).trans ?_
  exact pay2_at (xblk V c t) (mblk V c t) (outsAt0 V c (t.val - 1) (Nat.lt_of_le_of_lt (Nat.sub_le _ _) t.isLt)) z g

/-- After point `n` the staging buffer holds, per group, the sum of the contributions of tiles `0 … n`. -/
private theorem outsAt_eq (c : Dev nD) (z : Fin 1) (g : Fin 64) : ∀ (n : Nat) (h : n < cfg0.N),
    outsAt0 V c n h (ix2 z g) = ∑ s ∈ Finset.range (n + 1), tileAccN (xarr V c) (marr V c) s g
  | 0, h => by
    rw [Finset.sum_range_one]
    exact (outs_A V c ⟨0, h⟩ rfl z g).trans (tile_eq V c ⟨0, h⟩ g)
  | n + 1, h => by
    have hN : cfg0.N = 16 := N_0
    have hB : ¬(⟨n + 1, h⟩ : Fin cfg0.N).val % 16 = 0 := by dsimp only; omega
    rw [Finset.sum_range_succ, ← outsAt_eq c z g n (Nat.lt_of_succ_lt h)]
    exact (outs_B V c ⟨n + 1, h⟩ hB z g).trans (congrArg (outsAt0 V c n (Nat.lt_of_succ_lt h) (ix2 z g) + ·) (tile_eq V c ⟨n + 1, h⟩ g))

end Acc

/-! ## The result array after the last point -/

section Final

open Idealize.ShloMosaic.ValueIdx

variable (V : (c : Dev nD) → (b : Ref sig .tc) → Buf (Elt Ideal) ((c : Thread nD τ).loc b))

/-- The sixteen tiles' contributions add up to the whole sum. -/
private theorem sum_tiles (x : S65536x1024.Idx → EReal) (M : S1024x64.Idx → EReal) (z : Fin 1) (g : Fin 64) :
    ∑ s ∈ Finset.range 16, tileAccN x M s g = groupAcc x M (ix2 z g) := by
  rw [← Fin.sum_univ_eq_sum_range (fun s => tileAccN x M s g) 16]
  unfold groupAcc
  refine Finset.sum_congr rfl fun t _ => ?_
  unfold tileAccN
  rw [dif_pos t.isLt]
  rfl

/-- The whole sum, as contents of the result array (its one block is the array). -/
private abbrev result (c : Dev nD) : Buf (Elt Ideal) ((c : Thread nD τ).loc main_v10) := groupAcc (V c main_v0) (V c main_v9)

/-- After the last point the staging buffer holds the whole sum. -/
private theorem outs_last (c : Dev nD) : outsAt0 V c t0_15.val t0_15.isLt = result V c := by
  funext j
  obtain ⟨z, g, rfl⟩ : ∃ (z : Fin 1) (g : Fin 64), j = ix2 z g := ⟨j 0, j 1, eq_ix2 j⟩
  exact (outsAt_eq V c z g 15 t0_15.isLt).trans (sum_tiles (xarr V c) (marr V c) z g)

/-- The one write-back, at point 15, writes it: block (0, 0) of the `[1, 64]` array read through zero offsets is the
    array. -/
private theorem flushed_eq (c : Dev nD) (t : Fin cfg0.N) (hf : (cfg0.win 2).flush t = true) :
    (dat0 V c).flushed 2 t = ((cfg0.win 2).blk t).view.read (Elt Ideal) (result V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outs_last]
  have hz' : (fun a => win0_2.index t0_15 a * main_v10.ty.shape.size a) = fun _ => 0 :=
    funext fun a => by fin_cases a <;> decide
  exact (Memref.read_access_unit_zero (Elt Ideal) main_v10 hz' (fun a => by rw [congrFun hz' a]; simp) (result V c)).symm

end Final

variable (V : (c : Dev nD) → (b : Ref sig .tc) → Buf (Elt Ideal) ((c : Thread nD τ).loc b))

/-- After the sixteen points the region's result array holds, per group, the tiled membership-weighted sum of squares
    of the flat input as the region found it. -/
theorem sumsq_final (c : Dev nD) :
    (dat0 V c).arrAt 2 cfg0.N = groupAcc (V c main_v0) (V c main_v9) :=
  (dat0 V c).arrAt_eq_of_cover 2 (result V c) (flushed_eq V c) fun i =>
    ⟨t0_15, (flush0_2 t0_15).mpr rfl, by
      show i ∈ ((View.whole main_v10).slice (win0_2.rect t0_15)).set
      rw [View.set_slice_whole, Rect.mem_set_unit]
      intro a
      have h0 : (i 0 : Nat) < 1 := (i 0).isLt
      have h1 : (i 1 : Nat) < 64 := (i 1).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1 from by decide +kernel]
        omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 64 from by decide +kernel]
        omega⟩

end Cert.GroupShrink.SumRegion

end
-- ==== Proof.ScaleRegion.lean ====
/-
  The second kernel region (the per-column scaling) as a value: what its `[65536, 1024]` result array holds after the
  thirty-two grid points.

  Point `t` of the grid works on rows `2048 t … 2048 t + 2047` of the flat input, all 1024 columns, together with the
  whole `[1, 1024]` row of scales; it multiplies every entry of its block by the scale of the entry's column and writes
  the block back to the same rows of the result. The thirty-two blocks of 2048 rows tile the 65536 rows, so the
  result is the scaled array everywhere.
-/
import proofs.«166947_j15023795601934_1_alg».proof.Proof.Gen.KernelIdeal.Frame
import proofs.«166947_j15023795601934_1_alg».proof.Proof.Idx
import Idealize.ShloMosaic.Lib.Pipeline.Value
import Idealize.ShloMosaic.Lib.ValueIdx
import Idealize.ShloMosaic.Lib.ValueLayout

noncomputable section

namespace Cert.GroupShrink.ScaleRegion

open Idealize.ShloMosaic Idealize.ShloMosaic.TcCoe Idealize.SL.Sem
open Idealize.ShloMosaic.Pipeline (Dat)
open Cert.KernelIdeal Cert.KernelIdeal.Gen Cert.GroupShrink
open Idealize.ShloMosaic.ValueIdx

/-- The two zero offsets of a whole-block access, as the constant function. -/
private theorem hz : (![0, 0] : Fin 2 → Nat) = fun _ => 0 := funext fun a => by fin_cases a <;> rfl

/-- The body's arithmetic at row `p`, column `q` of a block: the entry of the loaded block times the entry, in the same
    column, of the loaded row of scales (the row is repeated down the 2048 rows before the product). -/
private theorem pay_apply (x0 : Vec Ideal S2048x1024 .f32) (x1 : Vec Ideal S1x1024 .f32) (p : Fin 2048) (q : Fin 1024) :
    k1_pay1 (F := Ideal) x0 x1 (ix2 p q) = x0 (ix2 p q) * x1 (ix2 (0 : Fin 1) q) := by
  unfold k1_pay1
  rw [shapeCast_self, shapeCast_self]
  refine (mulf_apply _ _ _).trans ?_
  rw [broadcastTo_1b_ab_apply]

/-- Where each window's block sits at point `t`: the input's and the result's blocks are block-row `t`, block-column
    `0`; the row of scales is always its one block `(0, 0)`. -/
private theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One point, over plain arrays: if the first loaded block is the array `X` read at the places `e0`, the second the
    row `s` read at the places `e1`, the input block sits where the result block `e2` sits, and the scale read for
    column `q` is the one of the column of the result's entry, then the body's result is the scaled array read at the
    result block's places. -/
private theorem block_eq (X : S65536x1024.Idx → EReal) (s : S1x1024.Idx → EReal)
    (x0 : Vec Ideal S2048x1024 .f32) (x1 : Vec Ideal S1x1024 .f32)
    (e2 e0 : S2048x1024.Idx → S65536x1024.Idx) (e1 : S1x1024.Idx → S1x1024.Idx)
    (h0 : x0 = fun y => X (e0 y)) (h1 : x1 = fun y => s (e1 y))
    (h02 : ∀ y, e0 y = e2 y)
    (h12 : ∀ (p : Fin 2048) (q : Fin 1024), e1 (ix2 (0 : Fin 1) q) = colIdx (e2 (ix2 p q))) :
    k1_pay1 (F := Ideal) x0 x1 = fun y => scaled X s (e2 y) := by
  funext j
  obtain ⟨p, q, rfl⟩ : ∃ (p : Fin 2048) (q : Fin 1024), j = ix2 p q := ⟨j 0, j 1, eq_ix2 j⟩
  refine (pay_apply x0 x1 p q).trans ?_
  subst h0 h1
  show X (e0 (ix2 p q)) * s (e1 (ix2 (0 : Fin 1) q)) = X (e2 (ix2 p q)) * s (colIdx (e2 (ix2 p q)))
  rw [h02, h12 p q]

variable (V : (c : Dev nD) → (b : Ref sig .tc) → Buf (Elt Ideal) ((c : Thread nD τ).loc b))

/-- The flat `[65536, 1024]` input as the region finds it. -/
private abbrev xarr (c : Dev nD) : S65536x1024.Idx → EReal := V c main_v0
/-- The `[1, 1024]` row of per-column scales as the region finds it. -/
private abbrev sarr (c : Dev nD) : S1x1024.Idx → EReal := V c main_v20

/-- What point `t` writes back is block `t` of the scaled array: rows `2048 t … 2048 t + 2047`, every column, each
    entry of the flat input times the scale of its column. An entry `(p, q)` of a block sits at row
    `2048 · (block row) + p` and column `1024 · (block column) + q` of its array. -/
private theorem flushed_eq (c : Dev nD) (t : Fin cfg1.N) :
    (dat1 V c).flushed 2 t = ((cfg1.win 2).blk t).view.read (Elt Ideal) (scaled (V c main_v0) (V c main_v20)) := by
  show (cfg1.win 2).cut (grid1.coords t) ((dat1 V c).after 2 t) = _
  rw [after1_2]
  unfold out1_2
  rw [View.canon_unit_zero hz]
  simp only [View.ld_unit_zero (S := S2048x1024) hz, View.ld_unit_zero (S := S1x1024) hz]
  obtain ⟨a0, a1, b0, b1, c0, c1⟩ := idx_facts t
  show k1_pay1 (F := Ideal) (iblk1 V c 0 t) (iblk1 V c 1 t)
    = fun y => scaled (xarr V c) (sarr V c) (((cfg1.win 2).blk t).view.emb y)
  refine block_eq (xarr V c) (sarr V c) (iblk1 V c 0 t) (iblk1 V c 1 t) (((cfg1.win 2).blk t).view.emb)
    (((cfg1.win 0).blk t).view.emb) (((cfg1.win 1).blk t).view.emb) rfl rfl ?_ ?_
  · intro y
    funext a; apply Fin.ext
    match a with
    | ⟨0, _⟩ => show win1_0.index t (0 : Fin 2) * 2048 + 1 * (y 0).val = win1_2.index t (0 : Fin 2) * 2048 + 1 * (y 0).val; omega
    | ⟨1, _⟩ => show win1_0.index t (1 : Fin 2) * 1024 + 1 * (y 1).val = win1_2.index t (1 : Fin 2) * 1024 + 1 * (y 1).val; omega
  · intro p q
    funext a; apply Fin.ext
    match a with
    | ⟨0, _⟩ => show win1_1.index t (0 : Fin 2) * 1 + 1 * 0 = 0; omega
    | ⟨1, _⟩ => show win1_1.index t (1 : Fin 2) * 1024 + 1 * q.val = win1_2.index t (1 : Fin 2) * 1024 + 1 * q.val; omega

/-- An index of the result array is in point `t`'s block iff each coordinate is in the block's range on its axis. -/
private theorem mem_blk (t : Fin cfg1.N) (i : S65536x1024.Idx) :
    i ∈ ((cfg1.win 2).blk t).view.set ↔ ∀ a : Fin 2, win1_2.index t a * S2048x1024.size a ≤ (i a).val
      ∧ (i a).val < win1_2.index t a * S2048x1024.size a + S2048x1024.size a := by
  show i ∈ ((View.whole main_v21).slice (win1_2.rect t)).set ↔ _
  rw [View.set_slice_whole, Rect.mem_set_unit]
  exact Iff.rfl

/-- Every entry of the result is written: row `n` lies in the block of point `n / 2048`, and that block spans all
    1024 columns. -/
private theorem cover (i : S65536x1024.Idx) :
    ∃ t : Fin cfg1.N, (cfg1.win 2).flush t = true ∧ i ∈ ((cfg1.win 2).blk t).view.set := by
  have hi0 : (i 0).val < 65536 := (i 0).isLt
  have hi1 : (i 1).val < 1024 := (i 1).isLt
  have hN : cfg1.N = 32 := N_1
  have ht : (i 0).val / 2048 < cfg1.N := by rw [hN]; omega
  obtain ⟨-, -, -, -, c0, c1⟩ := idx_facts ⟨(i 0).val / 2048, ht⟩
  have c0' : win1_2.index ⟨(i 0).val / 2048, ht⟩ (0 : Fin 2) = (i 0).val / 2048 := c0
  refine ⟨⟨(i 0).val / 2048, ht⟩, flush1_2 _, ?_⟩
  rw [mem_blk]
  intro a
  match a with
  | ⟨0, _⟩ =>
    show win1_2.index ⟨(i 0).val / 2048, ht⟩ (0 : Fin 2) * 2048 ≤ (i 0).val
      ∧ (i 0).val < win1_2.index ⟨(i 0).val / 2048, ht⟩ (0 : Fin 2) * 2048 + 2048
    omega
  | ⟨1, _⟩ =>
    show win1_2.index ⟨(i 0).val / 2048, ht⟩ (1 : Fin 2) * 1024 ≤ (i 1).val
      ∧ (i 1).val < win1_2.index ⟨(i 0).val / 2048, ht⟩ (1 : Fin 2) * 1024 + 1024
    omega

/-- After the thirty-two points the region's result array holds every entry of the flat input times the scale of its
    column, both as the region found them. -/
theorem scale_final (c : Dev nD) :
    (dat1 V c).arrAt 2 cfg1.N = scaled (V c main_v0) (V c main_v20) :=
  (dat1 V c).arrAt_eq_of_cover 2 (scaled (V c main_v0) (V c main_v20)) (fun t _ => flushed_eq V c t) cover

end Cert.GroupShrink.ScaleRegion

end
-- ==== Proof.GroupSum.lean ====
/-
  The one algebraic law that joins the two programs, over the extended reals, for an arbitrary array of summands.

  Both programs add up, for each group `g` of 16 consecutive columns, one term per (row, column-in-group) pair of the
  flat `[65536, 1024]` view. The kernel does it tile by tile (16 tiles of 4096 rows), summing each row over ALL 1024
  columns against a 0/1 membership weight that keeps the group's own 16 columns; the reference views the same data as
  `[32, 2048, 64, 16]` and sums over every index whose third coordinate is `g`. Addition of extended reals is
  commutative and associative, `0 · a = 0` and `a · 1 = a` hold for every extended real, so both are the plain double sum
  `∑ n < 65536, ∑ e < 16, f n (16 g + e)`; no finiteness is used.
-/
import Idealize.ShloMosaic.PureOps.Ideal
import Idealize.ShloMosaic.PureOps.Reduce
import Idealize.ShloMosaic.Lib.ValueIdx

noncomputable section

namespace Cert.GroupShrink.GroupSum

open Idealize.ShloMosaic Idealize.ShloMosaic.ValueIdx

/-- The reference's four-axis view of the input. -/
abbrev S4 : Shape := ⟨4, ![32, 2048, 64, 16]⟩
/-- One value per group. -/
abbrev SG : Shape := ⟨1, ![64]⟩

/-- Column `e` of group `g`. -/
abbrev groupCol (g : Fin 64) (e : Fin 16) : Fin 1024 :=
  ⟨g.val * 16 + e.val, by have := g.isLt; have := e.isLt; omega⟩

/-- Row `n` of the flat view, column `e` of group `g`, as an index of the four-axis view: `(n / 2048, n % 2048, g, e)`. -/
abbrev viewIdx (n : Fin 65536) (g : Fin 64) (e : Fin 16) : S4.Idx :=
  ix4 (⟨n.val / 2048, by have := n.isLt; omega⟩ : Fin 32) (⟨n.val % 2048, Nat.mod_lt _ (by decide)⟩ : Fin 2048) g e

/-! ## Re-indexing: a product of two ranges as one range -/

/-- `(group, column in group) ↦ column`: the 1024 columns are 64 groups of 16 consecutive ones. -/
private def colEquiv : Fin 64 × Fin 16 ≃ Fin 1024 where
  toFun p := groupCol p.1 p.2
  invFun k := (⟨k.val / 16, by have := k.isLt; omega⟩, ⟨k.val % 16, Nat.mod_lt _ (by decide)⟩)
  left_inv p := by
    obtain ⟨a, b⟩ := p
    have := a.isLt; have := b.isLt
    refine Prod.ext (Fin.ext ?_) (Fin.ext ?_)
    · show (a.val * 16 + b.val) / 16 = a.val
      omega
    · show (a.val * 16 + b.val) % 16 = b.val
      omega
  right_inv k := by
    refine Fin.ext ?_
    show k.val / 16 * 16 + k.val % 16 = k.val
    omega

/-- `(tile, row in tile) ↦ flat row`: the 65536 rows are 16 tiles of 4096. -/
private def tileEquiv : Fin 16 × Fin 4096 ≃ Fin 65536 where
  toFun p := ⟨p.1.val * 4096 + p.2.val, by have := p.1.isLt; have := p.2.isLt; omega⟩
  invFun n := (⟨n.val / 4096, by have := n.isLt; omega⟩, ⟨n.val % 4096, Nat.mod_lt _ (by decide)⟩)
  left_inv p := by
    obtain ⟨a, b⟩ := p
    have := a.isLt; have := b.isLt
    refine Prod.ext (Fin.ext ?_) (Fin.ext ?_)
    · show (a.val * 4096 + b.val) / 4096 = a.val
      omega
    · show (a.val * 4096 + b.val) % 4096 = b.val
      omega
  right_inv n := by
    refine Fin.ext ?_
    show n.val / 4096 * 4096 + n.val % 4096 = n.val
    omega

/-- `(first axis, second axis) ↦ flat row` of the four-axis view: row `2048 a + b`. -/
private def rowEquiv : Fin 32 × Fin 2048 ≃ Fin 65536 where
  toFun p := ⟨p.1.val * 2048 + p.2.val, by have := p.1.isLt; have := p.2.isLt; omega⟩
  invFun n := (⟨n.val / 2048, by have := n.isLt; omega⟩, ⟨n.val % 2048, Nat.mod_lt _ (by decide)⟩)
  left_inv p := by
    obtain ⟨a, b⟩ := p
    have := a.isLt; have := b.isLt
    refine Prod.ext (Fin.ext ?_) (Fin.ext ?_)
    · show (a.val * 2048 + b.val) / 2048 = a.val
      omega
    · show (a.val * 2048 + b.val) % 2048 = b.val
      omega
  right_inv n := by
    refine Fin.ext ?_
    show n.val / 2048 * 2048 + n.val % 2048 = n.val
    omega

/-- A rank-4 index set is the product of its four coordinate ranges … -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
private theorem sum_idx4 {A : Type*} [AddCommMonoid A] {n0 n1 n2 n3 : Nat}
    (f : (⟨4, ![n0, n1, n2, n3]⟩ : Shape).Idx → A) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Of a double sum whose terms vanish off one value `g` of the outer variable, the inner sum at `g` is left. -/
private theorem sum_sum_ite_eq {α β : Type*} [Fintype α] [DecidableEq α] [Fintype β] (g : α) (Z : α → β → EReal) :
    (∑ c : α, ∑ d : β, if c = g then Z c d else 0) = ∑ d : β, Z g d := by
  rw [Finset.sum_comm]
  refine Finset.sum_congr rfl fun d _ => ?_
  rw [Finset.sum_ite_eq' Finset.univ g (fun c => Z c d), if_pos (Finset.mem_univ g)]

/-- One row against the membership weights: the row's 16 entries in group `g` are left. -/
private theorem row_weighted_sum (φ : Fin 1024 → EReal) (M : Fin 1024 → Fin 64 → EReal)
    (hM : ∀ k g, M k g = if k.val / 16 = g.val then 1 else 0) (g : Fin 64) :
    (∑ k : Fin 1024, φ k * M k g) = ∑ e : Fin 16, φ (groupCol g e) := by
  rw [← Equiv.sum_comp colEquiv (fun k => φ k * M k g), Fintype.sum_prod_type]
  rw [← sum_sum_ite_eq g (fun c e => φ (groupCol c e))]
  refine Finset.sum_congr rfl fun c _ => Finset.sum_congr rfl fun e _ => ?_
  show φ (groupCol c e) * M (groupCol c e) g = _
  rw [hM]
  have hce : (groupCol c e).val / 16 = g.val ↔ c = g := by
    have := e.isLt
    show (c.val * 16 + e.val) / 16 = g.val ↔ c = g
    rw [Fin.ext_iff]
    omega
  by_cases hc : c = g
  · rw [if_pos (hce.mpr hc), if_pos hc, mul_one]
  · rw [if_neg (fun h' => hc (hce.mp h')), if_neg hc, mul_zero]

/-- THE KERNEL'S ARRANGEMENT. Tile by tile and row by row, every column weighted by a 0/1 membership weight: what
    survives is each row's 16 columns of group `g`. -/
theorem tiled_weighted_sum (f : Fin 65536 → Fin 1024 → EReal) (M : Fin 1024 → Fin 64 → EReal)
    (hM : ∀ k g, M k g = if k.val / 16 = g.val then 1 else 0) (g : Fin 64) :
    (∑ t : Fin 16, ∑ r : Fin 4096, ∑ k : Fin 1024,
        f ⟨t.val * 4096 + r.val, by have := t.isLt; have := r.isLt; omega⟩ k * M k g)
      = ∑ n : Fin 65536, ∑ e : Fin 16, f n (groupCol g e) := by
  rw [← Equiv.sum_comp tileEquiv (fun n => ∑ e : Fin 16, f n (groupCol g e)), Fintype.sum_prod_type]
  refine Finset.sum_congr rfl fun t _ => Finset.sum_congr rfl fun r _ => ?_
  exact row_weighted_sum _ M hM g

/-- THE REFERENCE'S ARRANGEMENT. Summing the four-axis view over every index that drops (axes 0, 1 and 3 removed) to
    group `j` is the same double sum over flat rows and columns of the group. -/
theorem reduce_group_sum (h : S4.ReducesTo [0, 1, 3] SG) (z : S4.Idx → EReal) (j : SG.Idx) :
    (∑ i ∈ Finset.univ.filter (fun i : S4.Idx => h.drop i = j), z i)
      = ∑ n : Fin 65536, ∑ e : Fin 16, z (viewIdx n ⟨(j 0).val, (j 0).isLt⟩ e) := by
  set g : Fin 64 := ⟨(j 0).val, (j 0).isLt⟩ with hg
  have hfilter : ∀ i : S4.Idx, h.drop i = j ↔ (i 2).val = g.val := by
    intro i
    simp [funext_iff, Fin.ext_iff, Fin.forall_fin_one, h.drop_apply_val_of_eq i 0 2, hg]
  rw [Finset.filter_congr (fun i _ => hfilter i), Finset.sum_filter, sum_idx4]
  have hinner : ∀ (a : Fin 32) (b : Fin 2048),
      (∑ c : Fin 64, ∑ d : Fin 16, if ((ix4 a b c d : S4.Idx) 2).val = g.val then z (ix4 a b c d) else 0)
        = ∑ d : Fin 16, z (ix4 a b g d) := by
    intro a b
    rw [← sum_sum_ite_eq g (fun c d => z (ix4 a b c d))]
    refine Finset.sum_congr rfl fun c _ => Finset.sum_congr rfl fun d _ => ?_
    show (if c.val = g.val then _ else _) = _
    simp only [Fin.ext_iff]
  simp only [hinner]
  calc (∑ a : Fin 32, ∑ b : Fin 2048, ∑ d : Fin 16, z (ix4 a b g d))
      = ∑ p : Fin 32 × Fin 2048, ∑ d : Fin 16, z (ix4 p.1 p.2 g d) :=
        (Fintype.sum_prod_type (fun p : Fin 32 × Fin 2048 => ∑ d : Fin 16, z (ix4 p.1 p.2 g d))).symm
    _ = ∑ n : Fin 65536, ∑ d : Fin 16, z (ix4 (rowEquiv.symm n).1 (rowEquiv.symm n).2 g d) :=
        (Equiv.sum_comp rowEquiv.symm (fun p : Fin 32 × Fin 2048 => ∑ d : Fin 16, z (ix4 p.1 p.2 g d))).symm
    _ = ∑ n : Fin 65536, ∑ e : Fin 16, z (viewIdx n g e) := rfl

end Cert.GroupShrink.GroupSum

end
-- ==== Proof.KernelValue.lean ====
/-
  The kernel program's result is `result x θ`.

  Reading the fold of @main's segments backwards from the result array: the result is the second region's array viewed
  as `[32, 2048, 1024]`; that array is the flat input scaled column by column; the row of per-column scales is the
  per-group scale of the first region's result, each group's value repeated over its 16 columns; and the first
  region's result is, per group, the tiled membership-weighted sum of squares, which the membership matrix's contents
  (`1` exactly where `k / 16 = g`) turn into the plain group sum.
-/
import proofs.«166947_j15023795601934_1_alg».proof.Proof.HostMid
import proofs.«166947_j15023795601934_1_alg».proof.Proof.HostPre
import proofs.«166947_j15023795601934_1_alg».proof.Proof.SumRegion
import proofs.«166947_j15023795601934_1_alg».proof.Proof.ScaleRegion
import proofs.«166947_j15023795601934_1_alg».proof.Proof.GroupSum
import proofs.«166947_j15023795601934_1_alg».proof.Proof.Chain

noncomputable section

namespace Cert.GroupShrink.KernelValue

open Idealize.ShloMosaic Idealize.ShloMosaic.TcCoe Idealize.SL.Sem Idealize.ShloMosaic.ValueIdx
open Cert.KernelIdeal Cert.KernelIdeal.Gen Cert.GroupShrink

/-- Flat row `n`, column `k`. -/
abbrev flatIdx (n : Fin 65536) (k : Fin 1024) : S65536x1024.Idx := fun a => match a with
  | ⟨0, _⟩ => ⟨n.val, n.isLt⟩
  | ⟨1, _⟩ => ⟨k.val, k.isLt⟩

/-- The entry of the input a flat index names: batch `row / 2048`, time `row % 2048`, the same column. -/
abbrev unflat (j : S65536x1024.Idx) : S32x2048x1024.Idx := fun a => match a with
  | ⟨0, _⟩ => ⟨(j 0).val / 2048, by have h : (j 0).val < 65536 := (j 0).isLt; show (j 0).val / 2048 < 32; omega⟩
  | ⟨1, _⟩ => ⟨(j 0).val % 2048, by show (j 0).val % 2048 < 2048; omega⟩
  | ⟨2, _⟩ => ⟨(j 1).val, (j 1).isLt⟩

/-- The flat index of an entry of the input: row `2048 b + t`, the same column. -/
abbrev flatOf (i : S32x2048x1024.Idx) : S65536x1024.Idx := fun a => match a with
  | ⟨0, _⟩ => ⟨(i 0).val * 2048 + (i 1).val, by
      have h0 : (i 0).val < 32 := (i 0).isLt; have h1 : (i 1).val < 2048 := (i 1).isLt
      show (i 0).val * 2048 + (i 1).val < 65536; omega⟩
  | ⟨1, _⟩ => ⟨(i 2).val, (i 2).isLt⟩

/-- The flat view read at an index. -/
theorem flat_read (x : S32x2048x1024.Idx → EReal) (j : S65536x1024.Idx) :
    shapeCast S65536x1024 x Facts₀.shapeCasts_S32x2048x1024_S65536x1024 j = x (unflat j) :=
  shapeCast_apply x Facts₀.shapeCasts_S32x2048x1024_S65536x1024 j (unflat j) (by
    rewrite [Shape.rowMajor_val_three, Shape.rowMajor_val_two]
    have h0 : (j 0).val < 65536 := (j 0).isLt
    have h1 : (j 1).val < 1024 := (j 1).isLt
    show ((j 0).val / 2048 * 2048 + (j 0).val % 2048) * 1024 + (j 1).val = (j 0).val * 1024 + (j 1).val
    omega)

/-- Flat row `n`, column `e` of group `g` is the input's entry `rowCol n g e`. -/
theorem unflat_flatIdx (n : Fin 65536) (g : Fin 64) (e : Fin 16) :
    unflat (flatIdx n (GroupSum.groupCol g e)) = rowCol n g e := by
  funext a
  match a with
  | ⟨0, _⟩ => rfl
  | ⟨1, _⟩ => rfl
  | ⟨2, _⟩ => rfl

/-- An entry's flat index names that entry. -/
theorem unflat_flatOf (i : S32x2048x1024.Idx) : unflat (flatOf i) = i := by
  have h0 : (i 0).val < 32 := (i 0).isLt
  have h1 : (i 1).val < 2048 := (i 1).isLt
  funext a
  match a with
  | ⟨0, _⟩ =>
    apply Fin.ext
    show ((i 0).val * 2048 + (i 1).val) / 2048 = (i 0).val
    omega
  | ⟨1, _⟩ =>
    apply Fin.ext
    show ((i 0).val * 2048 + (i 1).val) % 2048 = (i 1).val
    omega
  | ⟨2, _⟩ => rfl

variable (m : (ℓ : Loc nD τ sig) → Buf (Elt Ideal) ℓ) (ρ : Dev nD → PrngReg)

/-- The input and the thresholds as launched, at their literal types. -/
abbrev xin (c : Dev nD) : S32x2048x1024.Idx → EReal := m ((c : Thread nD τ).loc main_arg0)
abbrev thr (c : Dev nD) : S64.Idx → EReal := m ((c : Thread nD τ).loc main_arg1)

/-- Group `g`'s place in the first region's `[1, 64]` result. -/
abbrev rowZero (j : S64.Idx) : S1x64.Idx := fun a => match a with
  | ⟨0, _⟩ => ⟨0, Nat.one_pos⟩
  | ⟨1, _⟩ => ⟨(j 0).val, (j 0).isLt⟩

/-- The first region's result, reshaped to `[64]`, is the plain group sum of squares of the input: the membership
    matrix keeps, of each row, the group's own 16 columns. -/
theorem kernel_sum (c : Dev nD) :
    shapeCast S64 ((dat0 (V3 m ρ) c).arrAt 2 cfg0.N) Facts₀.shapeCasts_S1x64_S64 = groupSq (xin m c) := by
  rw [SumRegion.sumsq_final, HostPre.entry0_flat]
  funext j
  rw [shapeCast_apply _ Facts₀.shapeCasts_S1x64_S64 j (rowZero j) (by
    rewrite [Shape.rowMajor_val_two, Shape.rowMajor_val_one]
    show 0 * 64 + (j 0).val = (j 0).val
    omega)]
  have key := GroupSum.tiled_weighted_sum
    (fun n k => xin m c (unflat (flatIdx n k)) * xin m c (unflat (flatIdx n k)))
    (fun k g => HostPre.memberArr m ρ c (memIdx k g)) (HostPre.entry0_member m ρ c) ⟨(j 0).val, (j 0).isLt⟩
  show groupAcc (shapeCast S65536x1024 (xin m c) Facts₀.shapeCasts_S32x2048x1024_S65536x1024)
    (HostPre.memberArr m ρ c) (rowZero j) = groupSq (xin m c) j
  refine Eq.trans ?_ (key.trans ?_)
  · unfold groupAcc
    refine Finset.sum_congr rfl fun t _ => Finset.sum_congr rfl fun r _ => Finset.sum_congr rfl fun k _ => ?_
    rw [flat_read]
  · unfold groupSq
    refine Finset.sum_congr rfl fun n _ => Finset.sum_congr rfl fun e _ => ?_
    show xin m c (unflat (flatIdx n (GroupSum.groupCol _ e))) * xin m c (unflat (flatIdx n (GroupSum.groupCol _ e))) = _
    rw [unflat_flatIdx]

/-- Column `d` as `(d / 16, d % 16)` of the `[64, 16]` table of repeated scales, and as an index of the `[1024]` vector. -/
abbrev grpIdx (i : S32x2048x1024.Idx) : S64x16.Idx := fun a => match a with
  | ⟨0, _⟩ => ⟨(i 2).val / 16, by have h : (i 2).val < 1024 := (i 2).isLt; show (i 2).val / 16 < 64; omega⟩
  | ⟨1, _⟩ => ⟨(i 2).val % 16, by show (i 2).val % 16 < 16; omega⟩
abbrev colOnly (i : S32x2048x1024.Idx) : S1024.Idx := fun a => match a with
  | ⟨0, _⟩ => ⟨(i 2).val, (i 2).isLt⟩

/-- The kernel program's result array is `result x θ` of the launch contents. -/
theorem kernel_result (c : Dev nD) :
    W9 m ρ c (Proc.devRef .tc main_v22) = result Facts₀.bcast_S_S64 (xin m c) (thr m c) := by
  rw [HostMid.result_eq, ScaleRegion.scale_final, HostMid.entry1_flat, HostPre.entry0_flat, HostMid.entry1_scale,
    kernel_sum]
  funext i
  have h2 : (i 2).val < 1024 := (i 2).isLt
  rw [shapeCast_apply _ Facts₀.shapeCasts_S65536x1024_S32x2048x1024 i (flatOf i) (by
    rewrite [Shape.rowMajor_val_two, Shape.rowMajor_val_three]
    show ((i 0).val * 2048 + (i 1).val) * 1024 + (i 2).val = ((i 0).val * 2048 + (i 1).val) * 1024 + (i 2).val
    rfl)]
  unfold scaled
  rw [flat_read, unflat_flatOf,
    shapeCast_apply _ Facts₀.shapeCasts_S1024_S1x1024 (colIdx (flatOf i)) (colOnly i) (by
      rewrite [Shape.rowMajor_val_one, Shape.rowMajor_val_two]
      show (i 2).val = 0 * 1024 + (i 2).val
      omega),
    shapeCast_apply _ Facts₀.shapeCasts_S64x16_S1024 (colOnly i) (grpIdx i) (by
      rewrite [Shape.rowMajor_val_two, Shape.rowMajor_val_one]
      show (i 2).val / 16 * 16 + (i 2).val % 16 = (i 2).val
      omega),
    broadcastInDim_apply _ Facts₀.bcast_S64_S64x16_0 _ (grpIdx i) (groupOf i) (fun a => match a with
      | ⟨0, _⟩ => by
        show (i 2).val / 16 = if (64 : Nat) = 1 then 0 else (i 2).val / 16
        rw [if_neg (by decide)])]
  rfl

end Cert.GroupShrink.KernelValue

end
-- ==== Proof.RefValue.lean ====
/-
  The reference's result is `result x θ`.

  The reference views the input as `[32, 2048, 64, 16]`, squares it, sums over the two row axes and the
  column-in-group axis into `[64]` (the plain group sum: `reduce_group_sum`), applies the per-group scale chain,
  broadcasts the scale back over the four axes, multiplies, and views the product as `[32, 2048, 1024]` again. Read at
  an index `(b, t, d)`: the reshape there and back is the identity on the linear position, and the scale read is the one
  of group `d / 16`.
-/
import proofs.«166947_j15023795601934_1_alg».proof.Proof.Gen.ReferenceIdeal.Read
import proofs.«166947_j15023795601934_1_alg».proof.Proof.Chain
import proofs.«166947_j15023795601934_1_alg».proof.Proof.GroupSum
import Idealize.ShloMosaic.Lib.IdealHost
import Idealize.ShloMosaic.PureOps.Ideal.Laws

noncomputable section

namespace Cert.GroupShrink.RefValue

open Idealize.ShloMosaic Idealize.ShloMosaic.TcCoe Idealize.ShloMosaic.ValueIdx
open Cert.ReferenceIdeal Cert.ReferenceIdeal.Read Cert.GroupShrink

/-- The four-axis view at `(n / 2048, n % 2048, g, e)` reads the input at flat row `n`, column `16 g + e`. -/
theorem view_read (n : Fin 65536) (g : Fin 64) (e : Fin 16) :
    idx_main_v0 (GroupSum.viewIdx n g e) = rowCol n g e := by
  have hn := n.isLt; have hg := g.isLt; have he := e.isLt
  funext a
  match a with
  | ⟨0, _⟩ => exact Fin.ext (by
      show ((((n.val / 2048) * 2048 + n.val % 2048) * 64 + g.val) * 16 + e.val) / 2097152 = n.val / 2048; omega)
  | ⟨1, _⟩ => exact Fin.ext (by
      show ((((n.val / 2048) * 2048 + n.val % 2048) * 64 + g.val) * 16 + e.val) / 1024 % 2048 = n.val % 2048; omega)
  | ⟨2, _⟩ => exact Fin.ext (by
      show ((((n.val / 2048) * 2048 + n.val % 2048) * 64 + g.val) * 16 + e.val) % 1024 = g.val * 16 + e.val; omega)

/-- The reference's reduce is the plain group sum of squares. -/
theorem ref_sum (x : XS.Idx → EReal) : val_main_v2 (F := Ideal) x = groupSq x := by
  funext j
  show Ideal.hostReduceAdd Facts₀.reducesTo_S32x2048x64x16_S64_d0_1_3 (val_main_v1 (F := Ideal) x) _ j = _
  unfold Ideal.hostReduceAdd
  rw [GroupSum.reduce_group_sum]
  show Ideal.ofBits .f32 0x00000000#32 + _ = _
  rw [Ideal.ofBits_zero_f32, zero_add]
  unfold groupSq
  refine Finset.sum_congr rfl fun n _ => Finset.sum_congr rfl fun e _ => ?_
  rw [val_main_v1_apply, val_main_v0_apply, view_read]
  rfl

/-- The per-group scale the reference computes is `scaleOf` of its reduce. -/
theorem ref_scale (x : XS.Idx → EReal) (θ : GS.Idx → EReal) :
    val_main_v8 (F := Ideal) x θ = scaleOf Facts₀.bcast_S_S64 (val_main_v2 (F := Ideal) x) θ := rfl

/-- There and back through the four-axis view is the same entry. -/
theorem there_and_back (i : XS.Idx) : idx_main_v0 (idx_main_v12 i) = i := by
  have h0 : (i 0).val < 32 := (i 0).isLt
  have h1 : (i 1).val < 2048 := (i 1).isLt
  have h2 : (i 2).val < 1024 := (i 2).isLt
  funext a
  match a with
  | ⟨0, _⟩ =>
    apply Fin.ext
    show ((((((i 0).val * 2048 + (i 1).val) * 1024 + (i 2).val) / 2097152 * 2048 + (((i 0).val * 2048 + (i 1).val) * 1024 + (i 2).val) / 1024 % 2048) * 64 + (((i 0).val * 2048 + (i 1).val) * 1024 + (i 2).val) / 16 % 64) * 16 + (((i 0).val * 2048 + (i 1).val) * 1024 + (i 2).val) % 16) / 2097152 = (i 0).val
    omega
  | ⟨1, _⟩ =>
    apply Fin.ext
    show ((((((i 0).val * 2048 + (i 1).val) * 1024 + (i 2).val) / 2097152 * 2048 + (((i 0).val * 2048 + (i 1).val) * 1024 + (i 2).val) / 1024 % 2048) * 64 + (((i 0).val * 2048 + (i 1).val) * 1024 + (i 2).val) / 16 % 64) * 16 + (((i 0).val * 2048 + (i 1).val) * 1024 + (i 2).val) % 16) / 1024 % 2048 = (i 1).val
    omega
  | ⟨2, _⟩ =>
    apply Fin.ext
    show ((((((i 0).val * 2048 + (i 1).val) * 1024 + (i 2).val) / 2097152 * 2048 + (((i 0).val * 2048 + (i 1).val) * 1024 + (i 2).val) / 1024 % 2048) * 64 + (((i 0).val * 2048 + (i 1).val) * 1024 + (i 2).val) / 16 % 64) * 16 + (((i 0).val * 2048 + (i 1).val) * 1024 + (i 2).val) % 16) % 1024 = (i 2).val
    omega

/-- The scale an entry meets is its column's group's. -/
theorem scale_read (i : XS.Idx) : idx_main_v9 (idx_main_v10 (idx_main_v12 i)) = groupOf i := by
  have h0 : (i 0).val < 32 := (i 0).isLt
  have h1 : (i 1).val < 2048 := (i 1).isLt
  have h2 : (i 2).val < 1024 := (i 2).isLt
  funext a
  match a with
  | ⟨0, _⟩ =>
    apply Fin.ext
    show (((i 0).val * 2048 + (i 1).val) * 1024 + (i 2).val) / 16 % 64 = (i 2).val / 16
    omega

/-- The reference's result array is `result x θ`. -/
theorem ref_result (x : XS.Idx → EReal) (θ : GS.Idx → EReal) :
    val_main_v12 (F := Ideal) x θ = result Facts₀.bcast_S_S64 x θ := by
  funext i
  rw [val_main_v12_apply, val_main_v11_apply, val_main_v0_apply, val_main_v10_apply, val_main_v9_apply,
    there_and_back, scale_read, ref_scale, ref_sum]
  rfl

end Cert.GroupShrink.RefValue

end
-- ==== Proof.lean ====
/-
  Group soft-thresholding, kernel against reference, over the extended reals.

  For `x : [32, 2048, 1024]` — 65536 rows of 1024 columns, the columns in 64 groups of 16 consecutive ones — and
  thresholds `θ : [64]`, both programs return

      out[b, t, d] = x[b, t, d] · max (√(S_g + ε) − θ_g) 0 / √(S_g + ε),      g = d / 16,

  where `S_g` is the sum of `x²` over every row and the 16 columns of group `g` (`Cert.GroupShrink.result`).

  The reference computes `S` by one reduce over three axes of the four-axis view `[32, 2048, 64, 16]`. The kernel
  program computes it in a first region that walks 16 tiles of 4096 rows: per tile it squares the block, multiplies
  it by the 1024 × 64 membership matrix (`1` at `(k, g)` exactly when `k / 16 = g`, built on the host from two iotas),
  sums the 4096 rows, and adds the result to a `[1, 64]` accumulator that the first point resets to zero. Addition and
  multiplication of extended reals are commutative and associative, `a · 0 = 0` and `a · 1 = a` for every extended real,
  so the tiled, membership-weighted sum is the plain group sum (`GroupSum.tiled_weighted_sum`), and so is the
  reference's reduce (`GroupSum.reduce_group_sum`): no finiteness of the input is used. Both programs then apply
  the same host operations, with the same words for `ε` and `0`, to the `[64]` vector of sums (`scaleOf`: never opened),
  and multiply each entry by the scale of its column's group — the kernel program in a second region over 32 blocks of
  2048 rows against a `[1, 1024]` row of per-column scales, the reference against a broadcast over the four-axis view.

  Modules: `Chain` (the result function), `GroupSum` (the law joining the two sums), `SumRegion` and `ScaleRegion`
  (what each kernel region leaves in its result array), `HostPre` and `HostMid` (the host operations around the
  regions, the membership matrix among them), `KernelValue` and `RefValue` (each program's result is `result x θ`),
  `KRun` (the kernel program's run with its result array named). The ideal pass rewrote nothing, so `preserves` is
  `True`; the kernel programs' frames are the generated ones, the reference's is its run with the result dropped.
-/
import proofs.«166947_j15023795601934_1_alg».proof.Defs
import proofs.«166947_j15023795601934_1_alg».proof.Proof.Gen.Kernel
import proofs.«166947_j15023795601934_1_alg».proof.Proof.Gen.Kernel.Skeleton
import proofs.«166947_j15023795601934_1_alg».proof.Proof.Gen.Kernel.Launch
import proofs.«166947_j15023795601934_1_alg».proof.Proof.Gen.Kernel.Points
import proofs.«166947_j15023795601934_1_alg».proof.Proof.Gen.Kernel.Frame
import proofs.«166947_j15023795601934_1_alg».proof.Proof.Gen.KernelIdeal
import proofs.«166947_j15023795601934_1_alg».proof.Proof.Gen.KernelIdeal.Skeleton
import proofs.«166947_j15023795601934_1_alg».proof.Proof.Gen.KernelIdeal.Launch
import proofs.«166947_j15023795601934_1_alg».proof.Proof.Gen.KernelIdeal.Points
import proofs.«166947_j15023795601934_1_alg».proof.Proof.Gen.KernelIdeal.Frame
import proofs.«166947_j15023795601934_1_alg».proof.Proof.Gen.ReferenceIdeal
import proofs.«166947_j15023795601934_1_alg».proof.Proof.Gen.Pre_finite_inputs
import proofs.«166947_j15023795601934_1_alg».proof.Proof.Gen.ReferenceIdeal.Run
import proofs.«166947_j15023795601934_1_alg».proof.Proof.Gen.ReferenceIdeal.Read
import proofs.«166947_j15023795601934_1_alg».proof.Proof.KRun
import proofs.«166947_j15023795601934_1_alg».proof.Proof.KernelValue
import proofs.«166947_j15023795601934_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The two idealized programs, from memories agreeing on `x` and `θ`, both end with `result x θ` in their result
    arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W9 m ρ c (Proc.devRef .tc Cert.KernelIdeal.main_v22),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.GroupShrink.RefValue.ref_result, (hagree c).1, (hagree c).2]
  exact (Cert.GroupShrink.KernelValue.kernel_result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
